-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32x512 : Shape := ⟨2, ![32, 512]⟩
abbrev S32 : Shape := ⟨1, ![32]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x1024x512 .f32) (main_arg1 : FVec F S32x512 .f32) (main_arg2 : FVec F S32 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x1024x512 : Shape := ⟨3, ![32, 1024, 512]⟩
abbrev S32x512 : Shape := ⟨2, ![32, 512]⟩
abbrev S32 : Shape := ⟨1, ![32]⟩
abbrev S512x32 : Shape := ⟨2, ![512, 32]⟩
abbrev S1x32 : Shape := ⟨2, ![1, 32]⟩
abbrev S32x1x32 : Shape := ⟨3, ![32, 1, 32]⟩
abbrev S32x32x256 : Shape := ⟨3, ![32, 32, 256]⟩
abbrev S1x1024x512 : Shape := ⟨3, ![1, 1024, 512]⟩
abbrev S1x1x32 : Shape := ⟨3, ![1, 1, 32]⟩
abbrev S1x32x256 : Shape := ⟨3, ![1, 32, 256]⟩
abbrev S1024x512 : Shape := ⟨2, ![1024, 512]⟩
abbrev S1024x32 : Shape := ⟨2, ![1024, 32]⟩
abbrev S1024 : Shape := ⟨1, ![1024]⟩
abbrev S1024x1 : Shape := ⟨2, ![1024, 1]⟩
abbrev S1024x256 : Shape := ⟨2, ![1024, 256]⟩
abbrev S32x256 : Shape := ⟨2, ![32, 256]⟩
abbrev S32x1 : Shape := ⟨2, ![32, 1]⟩
abbrev S32x32 : Shape := ⟨2, ![32, 32]⟩

abbrev nBuf : Space → Nat
  | .hbm => 9
  | .vmem => 10
  | .smem => 0
  | _ => 0

abbrev bufTy : (tb : Table) → Fin (tcTables nBuf tb) → BufTy
  | .hbm, ⟨0, _⟩ => ⟨S32x1024x512, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S1x32, .f32⟩
  | .hbm, ⟨5, _⟩ => ⟨S32x1x32, .f32⟩
  | .hbm, ⟨6, _⟩ => ⟨S32x32x256, .f32⟩
  | .hbm, ⟨7, _⟩ => ⟨S32x32x256, .f32⟩
  | .hbm, ⟨8, _⟩ => ⟨S32x32, .f32⟩
  | .local _ .vmem, ⟨0, _⟩ => ⟨S1x1024x512, .f32⟩
  | .local _ .vmem, ⟨1, _⟩ => ⟨S1x1024x512, .f32⟩
  | .local _ .vmem, ⟨2, _⟩ => ⟨S512x32, .f32⟩
  | .local _ .vmem, ⟨3, _⟩ => ⟨S1x32, .f32⟩
  | .local _ .vmem, ⟨4, _⟩ => ⟨S1x1x32, .f32⟩
  | .local _ .vmem, ⟨5, _⟩ => ⟨S1x1x32, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x512_S512x32_1_0 : S32x512.Transposes [1, 0] S512x32
  shapeCasts_S32_S1x32 : S32.ShapeCasts S1x32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  bitsLt_bf16_f32 : FTy.bits .bf16 < FTy.bits .f32
  broadcasts_S1x32_S1024x32 : S1x32.Broadcasts S1024x32
  reduces_S1024x32_S1024 : S1024x32.Reduces [1] S1024
  shapeCasts_S1024_S1024x1 : S1024.ShapeCasts S1024x1
  broadcasts_S1024x1_S1024x32 : S1024x1.Broadcasts S1024x32
  slices_S1024x512_o0_0_S1024x256 : S1024x512.Slices ![0, 0] S1024x256
  slices_S1024x512_o0_256_S1024x256 : S1024x512.Slices ![0, 256] S1024x256
  concatenates_S1024x256_S1024x256_S1024x512_d1 : Shape.Concatenates [S1024x256, S1024x256] S1024x512 1
  reduces_S1024x32_S32 : S1024x32.Reduces [0] S32
  slices_S32x512_o0_0_S32x256 : S32x512.Slices ![0, 0] S32x256
  slices_S32x512_o0_256_S32x256 : S32x512.Slices ![0, 256] S32x256
  shapeCasts_S32_S32x1 : S32.ShapeCasts S32x1
  broadcasts_S32x1_S32x256 : S32x1.Broadcasts S32x256
  inb_S1x1x32_S1x1x32_0_0_0 : ∀ a, (![0, 0, 0] : Fin 3 → Nat) a + S1x1x32.size a ≤ S1x1x32.size a
  h_S1x1x32 : 0 < S1x1x32.numel
  shapeCasts_S1x1x32_S32 : S1x1x32.ShapeCasts S32
  shapeCasts_S32_S1x1x32 : S32.ShapeCasts S1x1x32
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  shapeCasts_S32x1x32_S32x32 : S32x1x32.ShapeCasts S32x32
  dot_S1024x512_S512x32_S1024x32_1_0_0_1_n_n_wf : DotDims.WF S1024x512 S512x32 S1024x32 [1] [0] [0] [1] [] []
  dot_S1024x32_S1024x512_S32x512_0_0_1_1_n_n_wf : DotDims.WF S1024x32 S1024x512 S32x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S32x1x32.size a
  hwx0_3 : ∀ i : grid0.Coords, EltTy.bits .f32 = 32 ∨ (Rect.block (s := S32x1x32) S1x1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x256.size a ≤ S32x32x256.size a
  hwx0_4 : ∀ i : grid0.Coords, EltTy.bits .f32 = 32 ∨ (Rect.block (s := S32x32x256) S1x32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x256.size a ≤ S32x32x256.size a
  hwx0_5 : ∀ i : grid0.Coords, EltTy.bits .f32 = 32 ∨ (Rect.block (s := S32x32x256) S1x32x256.size (cc0_transform_5 i) (hinb0_5 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S1024x512_S32x512_0_0_1_1_n_n : DotDims S1024x32 S1024x512 S32x512 where
  lhsContracting := [0]
  rhsContracting := [0]
  lhsNonContracting := [1]
  rhsNonContracting := [1]
  lhsBatch := []
  rhsBatch := []
  wf := dot_S1024x32_S1024x512_S32x512_0_0_1_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x32x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S32x512 : Shape := ⟨2, ![32, 512]⟩
abbrev S32 : Shape := ⟨1, ![32]⟩
abbrev S32x1024x32 : Shape := ⟨3, ![32, 1024, 32]⟩
abbrev S1x1x32 : Shape := ⟨3, ![1, 1, 32]⟩
abbrev S_ : Shape := ⟨0, ![]⟩
abbrev S32x1024 : Shape := ⟨2, ![32, 1024]⟩
abbrev S32x1024x1 : Shape := ⟨3, ![32, 1024, 1]⟩
abbrev S32x1024x256 : Shape := ⟨3, ![32, 1024, 256]⟩
abbrev S32x32 : Shape := ⟨2, ![32, 32]⟩
abbrev S32x32x256 : Shape := ⟨3, ![32, 32, 256]⟩
abbrev S32x32x1 : Shape := ⟨3, ![32, 32, 1]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x512, .f32⟩
  | .hbm, ⟨2, _⟩ => ⟨S32, .f32⟩
  | .hbm, ⟨3, _⟩ => ⟨S32x1024x32, .f32⟩
  | .hbm, ⟨4, _⟩ => ⟨S1x1x32, .f32⟩
  | .hbm, ⟨5, _⟩ => ⟨S32x1024x32, .f32⟩
  | .hbm, ⟨6, _⟩ => ⟨S32x1024x32, .f32⟩
  | .hbm, ⟨7, _⟩ => ⟨S_, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024x1, .f32⟩
  | .hbm, ⟨13, _⟩ => ⟨S32x1024x32, .f32⟩
  | .hbm, ⟨14, _⟩ => ⟨S32x1024x32, .f32⟩
  | .hbm, ⟨15, _⟩ => ⟨S32x1024x32, .f32⟩
  | .hbm, ⟨16, _⟩ => ⟨S_, .f32⟩
  | .hbm, ⟨17, _⟩ => ⟨S32x1024, .f32⟩
  | .hbm, ⟨18, _⟩ => ⟨S32x1024x1, .f32⟩
  | .hbm, ⟨19, _⟩ => ⟨S32x1024x32, .f32⟩
  | .hbm, ⟨20, _⟩ => ⟨S32x1024x32, .f32⟩
  | .hbm, ⟨21, _⟩ => ⟨S32x1024x256, .f32⟩
  | .hbm, ⟨22, _⟩ => ⟨S32x1024x256, .f32⟩
  | .hbm, ⟨23, _⟩ => ⟨S_, .f32⟩
  | .hbm, ⟨24, _⟩ => ⟨S32x32, .f32⟩
  | .hbm, ⟨25, _⟩ => ⟨S_, .f32⟩
  | .hbm, ⟨26, _⟩ => ⟨S32x32, .f32⟩
  | .hbm, ⟨27, _⟩ => ⟨S32x32, .f32⟩
  | .hbm, ⟨28, _⟩ => ⟨S_, .f32⟩
  | .hbm, ⟨29, _⟩ => ⟨S32x32, .f32⟩
  | .hbm, ⟨30, _⟩ => ⟨S32x32x256, .f32⟩
  | .hbm, ⟨31, _⟩ => ⟨S32x32x1, .f32⟩
  | .hbm, ⟨32, _⟩ => ⟨S32x32x256, .f32⟩
  | .hbm, ⟨33, _⟩ => ⟨S32x32x256, .f32⟩
  | .hbm, ⟨34, _⟩ => ⟨S32x1024x256, .f32⟩
  | .hbm, ⟨35, _⟩ => ⟨S32x1024x256, .f32⟩
  | .hbm, ⟨36, _⟩ => ⟨S32x1024x256, .f32⟩
  | .hbm, ⟨37, _⟩ => ⟨S32x32x256, .f32⟩
  | .hbm, ⟨38, _⟩ => ⟨S32x32x1, .f32⟩
  | .hbm, ⟨39, _⟩ => ⟨S32x32x256, .f32⟩
  | .hbm, ⟨40, _⟩ => ⟨S32x32x256, .f32⟩
  | .hbm, ⟨41, _⟩ => ⟨S32x32x256, .f32⟩
  | .hbm, ⟨42, _⟩ => ⟨S32x32x256, .f32⟩
  | .hbm, ⟨43, _⟩ => ⟨S_, .f32⟩
  | .hbm, ⟨44, _⟩ => ⟨S32x32x256, .f32⟩
  | .hbm, ⟨45, _⟩ => ⟨S32x32x256, .f32⟩
  | .hbm, ⟨46, _⟩ => ⟨S32x32x256, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S32x1024x32_0_1_2 : S1x1x32.BroadcastsInDim S32x1024x32 (![0, 1, 2] : Fin 3 → Fin S32x1024x32.rank)
  reducesTo_S32x1024x32_S32x1024_d2 : S32x1024x32.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x32_0_1_2 : S32x1024x1.BroadcastsInDim S32x1024x32 (![0, 1, 2] : Fin 3 → Fin S32x1024x32.rank)
  slices_S32x1024x512_S32x1024x256_0_0_0 : S32x1024x512.Slices ![0, 0, 0] S32x1024x256
  slices_S32x1024x512_S32x1024x256_0_0_256 : S32x1024x512.Slices ![0, 0, 256] S32x1024x256
  reducesTo_S32x1024x32_S32x32_d1 : S32x1024x32.ReducesTo [1] S32x32
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S32x32x256_0_1_2 : S32x32x1.BroadcastsInDim S32x32x256 (![0, 1, 2] : Fin 3 → Fin S32x32x256.rank)
  bcast_S_S32x32x256 : S_.BroadcastsInDim S32x32x256 (![] : Fin 0 → Fin S32x32x256.rank)
  dot_S32x1024x512_S32x512_S32x1024x32_2_1_01_0_n_n_wf : DotDims.WF S32x1024x512 S32x512 S32x1024x32 [2] [1] [0, 1] [0] [] []
  dot_S32x1024x32_S32x1024x256_S32x32x256_1_1_2_2_0_0_wf : DotDims.WF S32x1024x32 S32x1024x256 S32x32x256 [1] [1] [2] [2] [0] [0]

variable [Facts₀]

def dot_S32x1024x512_S32x512_S32x1024x32_2_1_01_0_n_n : DotDims S32x1024x512 S32x512 S32x1024x32 where
  lhsContracting := [2]
  rhsContracting := [1]
  lhsNonContracting := [0, 1]
  rhsNonContracting := [0]
  lhsBatch := []
  rhsBatch := []
  wf := dot_S32x1024x512_S32x512_S32x1024x32_2_1_01_0_n_n_wf
def dot_S32x1024x32_S32x1024x256_S32x32x256_1_1_2_2_0_0 : DotDims S32x1024x32 S32x1024x256 S32x32x256 where
  lhsContracting := [1]
  rhsContracting := [1]
  lhsNonContracting := [2]
  rhsNonContracting := [2]
  lhsBatch := [0]
  rhsBatch := [0]
  wf := dot_S32x1024x32_S32x1024x256_S32x32x256_1_1_2_2_0_0_wf

class Facts : Prop extends Facts₀ where

variable [Facts]
-- ==== Proof.Moments.lean ====
/-
  The mathematics both programs compute, for ONE sample slab, over the extended reals.

  A slab is a matrix `X` of 1024 rows (samples) and 512 columns (features), the projection is a matrix `W` of 512 rows
  and 32 columns (one column per mixture component), and `B` is the bias of the 32 components.  From them:
  * the logits `X · W + B`, the softmax of each row over the 32 components (row maximum subtracted, exponentials
    normalised by their row sum): the responsibilities `prob n g`;
  * the mass of component `g`: the sum of its responsibilities over the 1024 samples; the mixture weight is the mass
    times 2⁻¹⁰, that is, the mean responsibility;
  * with the first 256 features read as means and the last 256 as deviations, the responsibility-weighted first
    moment of the means and second moment `mean² + deviation²`, each divided by the mass: the location, and the
    variance as second moment minus squared location, clipped below at zero, whose square root is the scale.
  Nothing here names a program: the kernel's block and the reference's slab are both shown to compute these terms.
-/
import Idealize.ShloMosaic.PureOps.Ideal
import Idealize.ShloMosaic.PureOps.Ideal.Laws
import Idealize.ShloMosaic.Lib.ValueIdx

noncomputable section

namespace Cert.Moments

open Idealize.ShloMosaic

/-- The f32 word of -∞, the value both row maxima start from. -/
abbrev negInf : EReal := Ideal.ofBits .f32 0xFF800000#32
/-- The f32 word of zero, the floor of the variance. -/
abbrev zeroWord : EReal := Ideal.ofBits .f32 0x00000000#32
/-- The f32 word of 2⁻¹⁰, the reciprocal of the 1024 samples. -/
abbrev invCount : EReal := Ideal.ofBits .f32 0x3A800000#32
/-- The f32 word of 1024, the number of samples. -/
abbrev count : EReal := Ideal.ofBits .f32 0x44800000#32

/-- Feature `o` of the first half (a mean) and of the second half (a deviation), as columns of the slab. -/
def lo (o : Fin 256) : Fin 512 := ⟨o.val, by omega⟩
def hi (o : Fin 256) : Fin 512 := ⟨256 + o.val, by omega⟩

section
variable (X : Fin 1024 → Fin 512 → EReal) (W : Fin 512 → Fin 32 → EReal) (B : Fin 32 → EReal)

/-- The logit of sample `n` for component `g`. -/
def logit (n : Fin 1024) (g : Fin 32) : EReal := (∑ d : Fin 512, X n d * W d g) + B g
/-- The largest logit of sample `n` (from -∞, and once more against -∞ as both programs do). -/
def rowMax (n : Fin 1024) : EReal := max negInf ((Finset.univ : Finset (Fin 32)).fold max negInf (fun g => logit X W B n g))
/-- The exponential of the shifted logit. -/
def expo (n : Fin 1024) (g : Fin 32) : EReal := Ideal.exp (logit X W B n g - rowMax X W B n)
/-- The row's normaliser. -/
def rowSum (n : Fin 1024) : EReal := ∑ g : Fin 32, expo X W B n g
/-- The responsibility of component `g` for sample `n`. -/
def prob (n : Fin 1024) (g : Fin 32) : EReal := Ideal.div (expo X W B n g) (rowSum X W B n)
/-- The mass of component `g`. -/
def mass (g : Fin 32) : EReal := ∑ n : Fin 1024, prob X W B n g
/-- The mixture weight: the mass times 2⁻¹⁰. -/
def weight (g : Fin 32) : EReal := mass X W B g * invCount
/-- The second-moment integrand of sample `n` at feature `o`. -/
def second (n : Fin 1024) (o : Fin 256) : EReal := X n (lo o) * X n (lo o) + X n (hi o) * X n (hi o)
/-- The weighted first and second moments. -/
def mom1 (g : Fin 32) (o : Fin 256) : EReal := ∑ n : Fin 1024, prob X W B n g * X n (lo o)
def mom2 (g : Fin 32) (o : Fin 256) : EReal := ∑ n : Fin 1024, prob X W B n g * second X n o
/-- The location of component `g` at feature `o`. -/
def loc (g : Fin 32) (o : Fin 256) : EReal := Ideal.div (mom1 X W B g o) (mass X W B g)
/-- The variance before clipping. -/
def var (g : Fin 32) (o : Fin 256) : EReal := Ideal.div (mom2 X W B g o) (mass X W B g) - loc X W B g o * loc X W B g o
/-- The scale of component `g` at feature `o`. -/
def scale (g : Fin 32) (o : Fin 256) : EReal := Ideal.sqrt (max (var X W B g o) zeroWord)

end

/-- The word 0x44800000 denotes 1024. -/
theorem count_eq : count = ((1024 : ℝ) : EReal) := by
  simp [count, Ideal.ofBits, Ideal.ieee, -EReal.coe_mul]; norm_num

/-- The word 0x3A800000 denotes 1/1024. -/
theorem invCount_eq : invCount = ((1 / 1024 : ℝ) : EReal) := by
  simp [invCount, Ideal.ofBits, Ideal.ieee, -EReal.coe_mul]; norm_num

/-- Dividing by the sample count is multiplying by its reciprocal, on every extended real: the mean of the
    responsibilities is the mass times 2⁻¹⁰. -/
theorem div_count (x : EReal) : Ideal.div x count = x * invCount := by
  rw [count_eq, invCount_eq, Ideal.div_coe (by norm_num : (1024 : ℝ) ≠ 0)]

/-! ## The three result arrays, and a block's three operands, as functions of indices

The batch is 32 slabs.  Slab `b` of the sample array `A0` is the matrix `(n, d) ↦ A0 (b, n, d)`; the projection
weights arrive as `A1 (g, d)` and are used transposed; the bias is `A2 g`.  A kernel block holds one slab with a
leading unit axis, the transposed projection, and the bias as one row. -/

open Idealize.ShloMosaic.ValueIdx

/-- Slab `b` of the sample array. -/
def slab (A0 : (⟨3, ![32, 1024, 512]⟩ : Shape).Idx → EReal) (b : Fin 32) : Fin 1024 → Fin 512 → EReal :=
  fun n d => A0 (ix3 b n d)
/-- The projection, transposed: feature by component. -/
def proj (A1 : (⟨2, ![32, 512]⟩ : Shape).Idx → EReal) : Fin 512 → Fin 32 → EReal := fun d g => A1 (ix2 g d)
/-- The bias. -/
def bias (A2 : (⟨1, ![32]⟩ : Shape).Idx → EReal) : Fin 32 → EReal := fun g => A2 (ix1 g)

/-- The mixture weights of every slab. -/
def weightsArr (A0 : (⟨3, ![32, 1024, 512]⟩ : Shape).Idx → EReal) (A1 : (⟨2, ![32, 512]⟩ : Shape).Idx → EReal)
    (A2 : (⟨1, ![32]⟩ : Shape).Idx → EReal) : (⟨2, ![32, 32]⟩ : Shape).Idx → EReal :=
  fun i => weight (slab A0 (i 0)) (proj A1) (bias A2) (i 1)
/-- The locations of every slab. -/
def locsArr (A0 : (⟨3, ![32, 1024, 512]⟩ : Shape).Idx → EReal) (A1 : (⟨2, ![32, 512]⟩ : Shape).Idx → EReal)
    (A2 : (⟨1, ![32]⟩ : Shape).Idx → EReal) : (⟨3, ![32, 32, 256]⟩ : Shape).Idx → EReal :=
  fun i => loc (slab A0 (i 0)) (proj A1) (bias A2) (i 1) (i 2)
/-- The scales of every slab. -/
def scalesArr (A0 : (⟨3, ![32, 1024, 512]⟩ : Shape).Idx → EReal) (A1 : (⟨2, ![32, 512]⟩ : Shape).Idx → EReal)
    (A2 : (⟨1, ![32]⟩ : Shape).Idx → EReal) : (⟨3, ![32, 32, 256]⟩ : Shape).Idx → EReal :=
  fun i => scale (slab A0 (i 0)) (proj A1) (bias A2) (i 1) (i 2)

/-- A block's slab: the leading unit axis dropped. -/
def blockSlab (x0 : (⟨3, ![1, 1024, 512]⟩ : Shape).Idx → EReal) : Fin 1024 → Fin 512 → EReal :=
  fun n d => x0 (ix3 (0 : Fin 1) n d)
/-- A block's projection, already feature by component. -/
def blockProj (x1 : (⟨2, ![512, 32]⟩ : Shape).Idx → EReal) : Fin 512 → Fin 32 → EReal := fun d g => x1 (ix2 d g)
/-- A block's bias, its one row. -/
def blockBias (x2 : (⟨2, ![1, 32]⟩ : Shape).Idx → EReal) : Fin 32 → EReal := fun g => x2 (ix2 (0 : Fin 1) g)

end Cert.Moments

end
-- ==== Proof.KernelBlock.lean ====
/-
  What the kernel body stores, read at an index, for any three loaded blocks: the mixture weights, the locations and
  the scales of the block's slab (Proof/Moments.lean), the block's slab being its sample block without the leading
  unit axis, its projection the second block as it stands, its bias the one row of the third.
-/
import proofs.«158666_j24472723652814_1_alg».proof.Proof.Gen.KernelIdeal.Skeleton
import proofs.«158666_j24472723652814_1_alg».proof.Proof.Moments
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Moments

/-! ## Columns: a vector as a column, a column broadcast along its rows, a vector under two unit axes -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column and broadcast along the rows reads, at `(p, c)`, the vector at `p`. -/
theorem column_broadcast_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    have huv : u.val * 1 + v.val = 0 := by omega
    rw [huv, Nat.zero_mul, Nat.zero_add])

/-! ## The slab -/

/-- The sample block without its unit axis is the block's slab. -/
theorem pay4_apply (x0 : Vec Ideal S1x1024x512 .f32) (n : Fin 1024) (d : Fin 512) :
    k0_pay4 (F := Ideal) x0 (ix2 n d) = blockSlab x0 n d := by
  unfold k0_pay4
  exact shapeCast_1ab_ab_apply x0 _ n d

/-! ## The first product: slab times projection -/

/-- In the first product the left operand's row is the result's row. -/
theorem lhs_logit_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
/-- In the first product the left operand's column is the summation index. -/
theorem lhs_logit_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
/-- In the first product the right operand's row is the summation index. -/
theorem rhs_logit_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
/-- In the first product the right operand's column is the result's column. -/
theorem rhs_logit_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- The product of a `[1024, 512]` and a `[512, 32]` matrix into zero, at `(n, g)`: the sum over the 512 features. -/
theorem matmul1_apply (lhs : FVec Ideal S1024x512 .bf16) (rhs : FVec Ideal S512x32 .bf16) (n : Fin 1024) (g : Fin 32) :
    matmul dot_S1024x512_S512x32_S1024x32_1_0_0_1_n_n none lhs rhs (constant (F := Ideal) S1024x32 .f32 0x00000000#32) (ix2 n g)
      = ∑ k : Fin 512, lhs (ix2 n k) * rhs (ix2 k g) := by
  simp only [matmul]
  rw [Ideal.matmul_constant_zero_apply, ← Equiv.sum_comp (contrEquiv1 dot_S1024x512_S512x32_S1024x32_1_0_0_1_n_n 512 rfl rfl).symm]
  refine Finset.sum_congr rfl fun k _ => ?_
  have hk := contrEquiv1_symm_val dot_S1024x512_S512x32_S1024x32_1_0_0_1_n_n 512 rfl rfl k
  have el : dot_S1024x512_S512x32_S1024x32_1_0_0_1_n_n.lhsIdx (ix2 n g) ((contrEquiv1 dot_S1024x512_S512x32_S1024x32_1_0_0_1_n_n 512 rfl rfl).symm k) = ix2 n k := funext fun a => Fin.ext (by
    match a with
    | ⟨0, _⟩ => exact lhs_logit_0 _ _
    | ⟨1, _⟩ => exact (lhs_logit_1 _ _).trans hk)
  have er : dot_S1024x512_S512x32_S1024x32_1_0_0_1_n_n.rhsIdx (ix2 n g) ((contrEquiv1 dot_S1024x512_S512x32_S1024x32_1_0_0_1_n_n 512 rfl rfl).symm k) = ix2 k g := funext fun a => Fin.ext (by
    match a with
    | ⟨0, _⟩ => exact (rhs_logit_0 _ _).trans hk
    | ⟨1, _⟩ => exact rhs_logit_1 _ _)
  rw [el, er]

/-! ## The logits and the softmax of each row -/

/-- The block's logits: the slab times the projection, plus the bias row under every row. -/
def kLogit (x0 : Vec Ideal S1x1024x512 .f32) (x1 : Vec Ideal S512x32 .f32) (x2 : Vec Ideal S1x32 .f32) :
    FVec Ideal S1024x32 .f32 :=
  addf
    (matmul dot_S1024x512_S512x32_S1024x32_1_0_0_1_n_n none (truncf .bf16 (k0_pay4 (F := Ideal) x0) bitsLt_bf16_f32)
      (truncf .bf16 (shapeCast S512x32 x1 shapeCasts_S512x32_S512x32) bitsLt_bf16_f32)
      (constant (F := Ideal) S1024x32 .f32 0x00000000#32))
    (broadcastTo S1024x32 (shapeCast S1x32 x2 shapeCasts_S1x32_S1x32) broadcasts_S1x32_S1024x32)

/-- The logits block at `(n, g)` is the logit of sample `n` for component `g`. -/
theorem kLogit_apply (x0 : Vec Ideal S1x1024x512 .f32) (x1 : Vec Ideal S512x32 .f32) (x2 : Vec Ideal S1x32 .f32)
    (n : Fin 1024) (g : Fin 32) :
    kLogit x0 x1 x2 (ix2 n g) = logit (blockSlab x0) (blockProj x1) (blockBias x2) n g := by
  unfold kLogit logit
  rw [addf_apply, matmul1_apply, broadcastTo_1b_ab_apply, shapeCast_self]
  simp only [truncf_apply, pay4_apply, shapeCast_self]
  rfl

/-- A maximum over the 32 columns from -∞, at row `n`: the fold of `max` over that row's entries. -/
theorem rowFold_apply (v : FVec Ideal S1024x32 .f32) (h : S1024x32.Reduces [1] S1024) (hφ : FKind.Formats .f32)
    (hacc : (0xFF800000#32 : BitVec 32) = FKind.maximumf.neutral .f32 hφ) (n : Fin 1024) :
    multiReduction (F := Ideal) .maximumf [1] S1024 v 0xFF800000#32 h hφ hacc (ix1 n)
      = (Finset.univ : Finset (Fin 32)).fold max negInf (fun g => v (ix2 n g)) := by
  refine (Ideal.multiReduction_maximumf_single v _ h hφ hacc (ix1 n)).trans ?_
  have e : ∀ k : Fin 32, h.lift (ix1 n) k = ix2 n k := fun k => funext fun a => Fin.ext (by
    match a with
    | ⟨0, _⟩ => rfl
    | ⟨1, _⟩ => rfl)
  show (Finset.univ : Finset (Fin 32)).fold max negInf (fun k : Fin 32 => v (h.lift (ix1 n) k)) = _
  simp only [e]

/-- A sum over the 32 columns, at row `n`: the sum of that row's entries. -/
theorem rowSum_apply (v : FVec Ideal S1024x32 .f32) (h : S1024x32.Reduces [1] S1024) (hφ : FKind.Formats .f32)
    (hacc : (0x00000000#32 : BitVec 32) = FKind.add.neutral .f32 hφ) (n : Fin 1024) :
    multiReduction (F := Ideal) .add [1] S1024 v 0x00000000#32 h hφ hacc (ix1 n) = ∑ g : Fin 32, v (ix2 n g) := by
  refine (Ideal.multiReduction_add_single v _ h hφ hacc (ix1 n)).trans ?_
  exact Finset.sum_congr rfl fun k _ => congrArg v (funext fun a => Fin.ext (by
    match a with
    | ⟨0, _⟩ => rfl
    | ⟨1, _⟩ => rfl))

/-- A sum over the 1024 rows, at column `g`: the sum of that column's entries. -/
theorem colSum_apply (v : FVec Ideal S1024x32 .f32) (h : S1024x32.Reduces [0] S32) (hφ : FKind.Formats .f32)
    (hacc : (0x00000000#32 : BitVec 32) = FKind.add.neutral .f32 hφ) (g : Fin 32) :
    multiReduction (F := Ideal) .add [0] S32 v 0x00000000#32 h hφ hacc (ix1 g) = ∑ n : Fin 1024, v (ix2 n g) := by
  refine (Ideal.multiReduction_add_single v _ h hφ hacc (ix1 g)).trans ?_
  exact Finset.sum_congr rfl fun k _ => congrArg v (funext fun a => Fin.ext (by
    match a with
    | ⟨0, _⟩ => rfl
    | ⟨1, _⟩ => rfl))

/-- The row maxima of a block, each taken from -∞ and once more against -∞. -/
def kMax (v : FVec Ideal S1024x32 .f32) : FVec Ideal S1024 .f32 :=
  maximumf (broadcast S1024 (Scalar.ofBits (F := Ideal) .f32 0xFF800000#32))
    (multiReduction (F := Ideal) .maximumf [1] S1024 v 0xFF800000#32 reduces_S1024x32_S1024 (.inl rfl) rfl)

/-- The row maximum at `n`. -/
theorem kMax_apply (v : FVec Ideal S1024x32 .f32) (n : Fin 1024) :
    kMax v (ix1 n) = max negInf ((Finset.univ : Finset (Fin 32)).fold max negInf (fun g => v (ix2 n g))) := by
  unfold kMax
  rw [maximumf_apply, broadcast_apply]
  exact congrArg (max negInf) (rowFold_apply v _ _ _ n)

/-- The exponentials of a block shifted by its row maxima. -/
def kExp (v : FVec Ideal S1024x32 .f32) : FVec Ideal S1024x32 .f32 :=
  exp (subf v (broadcastTo S1024x32 (shapeCast S1024x1 (kMax v) shapeCasts_S1024_S1024x1) broadcasts_S1024x1_S1024x32))

/-- The shifted exponential at `(n, g)`. -/
theorem kExp_apply (v : FVec Ideal S1024x32 .f32) (n : Fin 1024) (g : Fin 32) :
    kExp v (ix2 n g) = Ideal.exp (v (ix2 n g) - kMax v (ix1 n)) := by
  unfold kExp
  show Ideal.exp (v (ix2 n g) - broadcastTo S1024x32 (shapeCast S1024x1 (kMax v) shapeCasts_S1024_S1024x1) broadcasts_S1024x1_S1024x32 (ix2 n g)) = _
  rw [column_broadcast_apply]

/-- A block with each row divided by its sum. -/
def kNorm (v : FVec Ideal S1024x32 .f32) : FVec Ideal S1024x32 .f32 :=
  divf v (broadcastTo S1024x32
    (shapeCast S1024x1 (multiReduction (F := Ideal) .add [1] S1024 v 0x00000000#32 reduces_S1024x32_S1024 (.inl rfl) rfl)
      shapeCasts_S1024_S1024x1) broadcasts_S1024x1_S1024x32)

/-- The normalised block at `(n, g)`. -/
theorem kNorm_apply (v : FVec Ideal S1024x32 .f32) (n : Fin 1024) (g : Fin 32) :
    kNorm v (ix2 n g) = Ideal.div (v (ix2 n g)) (∑ g' : Fin 32, v (ix2 n g')) := by
  unfold kNorm
  rw [divf_apply, column_broadcast_apply]
  exact congrArg (Ideal.div (v (ix2 n g))) (rowSum_apply v _ _ _ n)

/-- The responsibilities block is the softmax of the logits block, row by row. -/
theorem pay5_eq (x0 : Vec Ideal S1x1024x512 .f32) (x1 : Vec Ideal S512x32 .f32) (x2 : Vec Ideal S1x32 .f32) :
    k0_pay5 (F := Ideal) x0 x1 x2 = kNorm (kExp (kLogit x0 x1 x2)) := rfl

/-- The responsibilities block at `(n, g)` is the responsibility of component `g` for sample `n`. -/
theorem pay5_apply (x0 : Vec Ideal S1x1024x512 .f32) (x1 : Vec Ideal S512x32 .f32) (x2 : Vec Ideal S1x32 .f32)
    (n : Fin 1024) (g : Fin 32) :
    k0_pay5 (F := Ideal) x0 x1 x2 (ix2 n g) = prob (blockSlab x0) (blockProj x1) (blockBias x2) n g := by
  rw [pay5_eq, kNorm_apply]
  unfold prob rowSum expo rowMax
  simp only [kExp_apply, kMax_apply, kLogit_apply]

/-! ## The mass and the mixture weight -/

/-- The column sums of the responsibilities at `g`: the mass of component `g`. -/
theorem pay6_apply (x0 : Vec Ideal S1x1024x512 .f32) (x1 : Vec Ideal S512x32 .f32) (x2 : Vec Ideal S1x32 .f32)
    (g : Fin 32) :
    k0_pay6 (F := Ideal) x0 x1 x2 (ix1 g) = mass (blockSlab x0) (blockProj x1) (blockBias x2) g := by
  unfold k0_pay6 mass
  refine (colSum_apply (k0_pay5 (F := Ideal) x0 x1 x2) _ _ _ g).trans ?_
  exact Finset.sum_congr rfl fun n _ => pay5_apply x0 x1 x2 n g

/-- The mass times 2⁻¹⁰ at `g`: the mixture weight. -/
theorem pay7_apply (x0 : Vec Ideal S1x1024x512 .f32) (x1 : Vec Ideal S512x32 .f32) (x2 : Vec Ideal S1x32 .f32)
    (g : Fin 32) :
    k0_pay7 (F := Ideal) x0 x1 x2 (ix1 g) = weight (blockSlab x0) (blockProj x1) (blockBias x2) g := by
  unfold k0_pay7 weight
  rw [mulf_apply, pay6_apply, broadcast_apply]
  rfl

/-! ## The second product: responsibilities against the moment features -/

/-- In the second product the left operand's row is the summation index. -/
theorem lhs_mom_0 (i : S32x512.Idx) (q : dot_S1024x32_S1024x512_S32x512_0_0_1_1_n_n.contr.Idx) :
    (dot_S1024x32_S1024x512_S32x512_0_0_1_1_n_n.lhsIdx i q 0).val = (q ⟨0, by decide⟩).val :=
  dot_S1024x32_S1024x512_S32x512_0_0_1_1_n_n.lhsIdx_val_of_single rfl i q
/-- In the second product the left operand's column is the result's row. -/
theorem lhs_mom_1 (i : S32x512.Idx) (q : dot_S1024x32_S1024x512_S32x512_0_0_1_1_n_n.contr.Idx) :
    (dot_S1024x32_S1024x512_S32x512_0_0_1_1_n_n.lhsIdx i q 1).val = (i 0).val := by
  unfold DotDims.lhsIdx
  rw [dif_neg (show ¬(1 : Fin S1024x32.rank) ∈ dot_S1024x32_S1024x512_S32x512_0_0_1_1_n_n.lhsBatch by decide), dif_pos (show (1 : Fin S1024x32.rank) ∈ dot_S1024x32_S1024x512_S32x512_0_0_1_1_n_n.lhsNonContracting by decide)]
  rfl
/-- In the second product the right operand's row is the summation index. -/
theorem rhs_mom_0 (i : S32x512.Idx) (q : dot_S1024x32_S1024x512_S32x512_0_0_1_1_n_n.contr.Idx) :
    (dot_S1024x32_S1024x512_S32x512_0_0_1_1_n_n.rhsIdx i q 0).val = (q ⟨0, by decide⟩).val :=
  dot_S1024x32_S1024x512_S32x512_0_0_1_1_n_n.rhsIdx_val_of_single rfl i q
/-- In the second product the right operand's column is the result's column. -/
theorem rhs_mom_1 (i : S32x512.Idx) (q : dot_S1024x32_S1024x512_S32x512_0_0_1_1_n_n.contr.Idx) :
    (dot_S1024x32_S1024x512_S32x512_0_0_1_1_n_n.rhsIdx i q 1).val = (i 1).val := by
  unfold DotDims.rhsIdx
  rw [dif_neg (show ¬(1 : Fin S1024x512.rank) ∈ dot_S1024x32_S1024x512_S32x512_0_0_1_1_n_n.rhsBatch by decide), dif_pos (show (1 : Fin S1024x512.rank) ∈ dot_S1024x32_S1024x512_S32x512_0_0_1_1_n_n.rhsNonContracting by decide)]
  rfl

/-- The product, over the 1024 samples, of a `[1024, 32]` and a `[1024, 512]` matrix into zero, at `(g, j)`: the sum
    over the samples of the products of the two columns' entries. -/
theorem matmul2_apply (lhs : FVec Ideal S1024x32 .bf16) (rhs : FVec Ideal S1024x512 .bf16) (g : Fin 32) (j : Fin 512) :
    matmul dot_S1024x32_S1024x512_S32x512_0_0_1_1_n_n none lhs rhs (constant (F := Ideal) S32x512 .f32 0x00000000#32) (ix2 g j)
      = ∑ n : Fin 1024, lhs (ix2 n g) * rhs (ix2 n j) := by
  simp only [matmul]
  rw [Ideal.matmul_constant_zero_apply, ← Equiv.sum_comp (contrEquiv1 dot_S1024x32_S1024x512_S32x512_0_0_1_1_n_n 1024 rfl rfl).symm]
  refine Finset.sum_congr rfl fun k _ => ?_
  have hk := contrEquiv1_symm_val dot_S1024x32_S1024x512_S32x512_0_0_1_1_n_n 1024 rfl rfl k
  have el : dot_S1024x32_S1024x512_S32x512_0_0_1_1_n_n.lhsIdx (ix2 g j) ((contrEquiv1 dot_S1024x32_S1024x512_S32x512_0_0_1_1_n_n 1024 rfl rfl).symm k) = ix2 k g := funext fun a => Fin.ext (by
    match a with
    | ⟨0, _⟩ => exact (lhs_mom_0 _ _).trans hk
    | ⟨1, _⟩ => exact lhs_mom_1 _ _)
  have er : dot_S1024x32_S1024x512_S32x512_0_0_1_1_n_n.rhsIdx (ix2 g j) ((contrEquiv1 dot_S1024x32_S1024x512_S32x512_0_0_1_1_n_n 1024 rfl rfl).symm k) = ix2 k j := funext fun a => Fin.ext (by
    match a with
    | ⟨0, _⟩ => exact (rhs_mom_0 _ _).trans hk
    | ⟨1, _⟩ => exact rhs_mom_1 _ _)
  rw [el, er]

/-- The slab's first 256 columns: the means. -/
def kLo (x0 : Vec Ideal S1x1024x512 .f32) : FVec Ideal S1024x256 .f32 :=
  extractStridedSlice S1024x256 ![0, 0] (k0_pay4 (F := Ideal) x0) slices_S1024x512_o0_0_S1024x256
/-- The slab's last 256 columns: the deviations. -/
def kHi (x0 : Vec Ideal S1x1024x512 .f32) : FVec Ideal S1024x256 .f32 :=
  extractStridedSlice S1024x256 ![0, 256] (k0_pay4 (F := Ideal) x0) slices_S1024x512_o0_256_S1024x256

/-- The means block at `(n, o)` is the slab at column `o` of its first half. -/
theorem kLo_apply (x0 : Vec Ideal S1x1024x512 .f32) (n : Fin 1024) (o : Fin 256) :
    kLo x0 (ix2 n o) = blockSlab x0 n (lo o) := by
  unfold kLo
  exact (slice2_axis1_apply 0 _ _ n o (lo o) (Nat.zero_add _).symm).trans (pay4_apply x0 n (lo o))

/-- The deviations block at `(n, o)` is the slab at column `o` of its second half. -/
theorem kHi_apply (x0 : Vec Ideal S1x1024x512 .f32) (n : Fin 1024) (o : Fin 256) :
    kHi x0 (ix2 n o) = blockSlab x0 n (hi o) := by
  unfold kHi
  exact (slice2_axis1_apply 256 _ _ n o (hi o) rfl).trans (pay4_apply x0 n (hi o))

/-- The moment features of the slab: the means, then beside them mean² + deviation². -/
def kFeat (x0 : Vec Ideal S1x1024x512 .f32) : FVec Ideal S1024x512 .bf16 :=
  concatenate S1024x512 1
    [⟨S1024x256, truncf .bf16 (kLo x0) bitsLt_bf16_f32⟩,
     ⟨S1024x256, truncf .bf16 (addf (mulf (kLo x0) (kLo x0)) (mulf (kHi x0) (kHi x0))) bitsLt_bf16_f32⟩]
    concatenates_S1024x256_S1024x256_S1024x512_d1

/-- In its first half the feature block holds the means. -/
theorem kFeat_lo (x0 : Vec Ideal S1x1024x512 .f32) (n : Fin 1024) (o : Fin 256) :
    kFeat x0 (ix2 n (lo o)) = blockSlab x0 n (lo o) := by
  unfold kFeat
  refine (concatenate_pair_apply_left (s₁ := S1024x256) (s₂ := S1024x256) (1 : Fin S1024x512.rank) _ _ _ (ix2 n (lo o)) rfl (ix2 n o) (fun b => by
    match b with
    | ⟨0, _⟩ => rfl
    | ⟨1, _⟩ => rfl)).trans ?_
  rw [truncf_apply, kLo_apply]

/-- In its second half the feature block holds the second-moment integrand. -/
theorem kFeat_hi (x0 : Vec Ideal S1x1024x512 .f32) (n : Fin 1024) (o : Fin 256) :
    kFeat x0 (ix2 n (hi o)) = second (blockSlab x0) n o := by
  unfold kFeat
  refine (concatenate_pair_apply_right (s₁ := S1024x256) (s₂ := S1024x256) (1 : Fin S1024x512.rank) _ _ _ (ix2 n (hi o)) rfl rfl (ix2 n o) (fun b hb => by
    match b, hb with
    | ⟨0, _⟩, _ => rfl
    | ⟨1, _⟩, hb => exact absurd (Fin.ext rfl) hb) (by
      show o.val + 256 = 256 + o.val
      omega)).trans ?_
  simp only [truncf_apply, addf_apply, mulf_apply, kLo_apply, kHi_apply]
  rfl

/-- The moments block is the product of the responsibilities with the moment features. -/
theorem pay8_eq (x0 : Vec Ideal S1x1024x512 .f32) (x1 : Vec Ideal S512x32 .f32) (x2 : Vec Ideal S1x32 .f32) :
    k0_pay8 (F := Ideal) x0 x1 x2
      = matmul dot_S1024x32_S1024x512_S32x512_0_0_1_1_n_n none (truncf .bf16 (k0_pay5 (F := Ideal) x0 x1 x2) bitsLt_bf16_f32) (kFeat x0)
          (constant (F := Ideal) S32x512 .f32 0x00000000#32) := rfl

/-- The moments block in its first half: the weighted first moment. -/
theorem pay8_lo (x0 : Vec Ideal S1x1024x512 .f32) (x1 : Vec Ideal S512x32 .f32) (x2 : Vec Ideal S1x32 .f32)
    (g : Fin 32) (o : Fin 256) :
    k0_pay8 (F := Ideal) x0 x1 x2 (ix2 g (lo o)) = mom1 (blockSlab x0) (blockProj x1) (blockBias x2) g o := by
  rw [pay8_eq, matmul2_apply]
  unfold mom1
  exact Finset.sum_congr rfl fun n _ => by rw [truncf_apply, pay5_apply, kFeat_lo]

/-- The moments block in its second half: the weighted second moment. -/
theorem pay8_hi (x0 : Vec Ideal S1x1024x512 .f32) (x1 : Vec Ideal S512x32 .f32) (x2 : Vec Ideal S1x32 .f32)
    (g : Fin 32) (o : Fin 256) :
    k0_pay8 (F := Ideal) x0 x1 x2 (ix2 g (hi o)) = mom2 (blockSlab x0) (blockProj x1) (blockBias x2) g o := by
  rw [pay8_eq, matmul2_apply]
  unfold mom2
  exact Finset.sum_congr rfl fun n _ => by rw [truncf_apply, pay5_apply, kFeat_hi]

/-- The first half of the moments block, cut out, at `(g, o)`. -/
theorem pay8_loSlice (x0 : Vec Ideal S1x1024x512 .f32) (x1 : Vec Ideal S512x32 .f32) (x2 : Vec Ideal S1x32 .f32)
    (g : Fin 32) (o : Fin 256) :
    extractStridedSlice S32x256 ![0, 0] (k0_pay8 (F := Ideal) x0 x1 x2) slices_S32x512_o0_0_S32x256 (ix2 g o)
      = mom1 (blockSlab x0) (blockProj x1) (blockBias x2) g o :=
  (slice2_axis1_apply 0 _ _ g o (lo o) (Nat.zero_add _).symm).trans (pay8_lo x0 x1 x2 g o)

/-- The second half of the moments block, cut out, at `(g, o)`. -/
theorem pay8_hiSlice (x0 : Vec Ideal S1x1024x512 .f32) (x1 : Vec Ideal S512x32 .f32) (x2 : Vec Ideal S1x32 .f32)
    (g : Fin 32) (o : Fin 256) :
    extractStridedSlice S32x256 ![0, 256] (k0_pay8 (F := Ideal) x0 x1 x2) slices_S32x512_o0_256_S32x256 (ix2 g o)
      = mom2 (blockSlab x0) (blockProj x1) (blockBias x2) g o :=
  (slice2_axis1_apply 256 _ _ g o (hi o) rfl).trans (pay8_hi x0 x1 x2 g o)

/-! ## Locations and variances -/

/-- The masses as a column, broadcast along the 256 features, at `(g, o)`: the mass of component `g`. -/
theorem massCol_apply (x0 : Vec Ideal S1x1024x512 .f32) (x1 : Vec Ideal S512x32 .f32) (x2 : Vec Ideal S1x32 .f32)
    (g : Fin 32) (o : Fin 256) :
    broadcastTo S32x256 (k0_pay9 (F := Ideal) x0 x1 x2) broadcasts_S32x1_S32x256 (ix2 g o)
      = mass (blockSlab x0) (blockProj x1) (blockBias x2) g := by
  unfold k0_pay9
  rw [column_broadcast_apply, pay6_apply]

/-- The first moment over the mass at `(g, o)`: the location. -/
theorem pay10_apply (x0 : Vec Ideal S1x1024x512 .f32) (x1 : Vec Ideal S512x32 .f32) (x2 : Vec Ideal S1x32 .f32)
    (g : Fin 32) (o : Fin 256) :
    k0_pay10 (F := Ideal) x0 x1 x2 (ix2 g o) = loc (blockSlab x0) (blockProj x1) (blockBias x2) g o := by
  unfold k0_pay10 loc
  rw [divf_apply, massCol_apply, pay8_loSlice]

/-- The second moment over the mass less the squared location at `(g, o)`: the variance before clipping. -/
theorem pay11_apply (x0 : Vec Ideal S1x1024x512 .f32) (x1 : Vec Ideal S512x32 .f32) (x2 : Vec Ideal S1x32 .f32)
    (g : Fin 32) (o : Fin 256) :
    k0_pay11 (F := Ideal) x0 x1 x2 (ix2 g o) = var (blockSlab x0) (blockProj x1) (blockBias x2) g o := by
  unfold k0_pay11 var
  rw [subf_apply, divf_apply, mulf_apply, massCol_apply, pay8_hiSlice, pay10_apply]

/-- The stored weights block at `(0, 0, g)` is the mixture weight of component `g`. -/
theorem weights_apply (x0 : Vec Ideal S1x1024x512 .f32) (x1 : Vec Ideal S512x32 .f32) (x2 : Vec Ideal S1x32 .f32)
    (u v : Fin 1) (g : Fin 32) :
    k0_pay1 (F := Ideal) (k0_pay7 x0 x1 x2) (ix3 u v g) = weight (blockSlab x0) (blockProj x1) (blockBias x2) g := by
  unfold k0_pay1
  rw [shapeCast_a_11a_apply, pay7_apply]

/-- The stored locations block at `(0, g, o)` is the location of component `g` at feature `o`. -/
theorem locs_apply (x0 : Vec Ideal S1x1024x512 .f32) (x1 : Vec Ideal S512x32 .f32) (x2 : Vec Ideal S1x32 .f32)
    (u : Fin 1) (g : Fin 32) (o : Fin 256) :
    k0_pay2 (F := Ideal) (k0_pay10 x0 x1 x2) (ix3 u g o) = loc (blockSlab x0) (blockProj x1) (blockBias x2) g o := by
  unfold k0_pay2
  rw [shapeCast_ab_1ab_apply, pay10_apply]

/-- The stored scales block at `(0, g, o)` is the scale of component `g` at feature `o`. -/
theorem scales_apply (x0 : Vec Ideal S1x1024x512 .f32) (x1 : Vec Ideal S512x32 .f32) (x2 : Vec Ideal S1x32 .f32)
    (u : Fin 1) (g : Fin 32) (o : Fin 256) :
    k0_pay3 (F := Ideal) (k0_pay11 x0 x1 x2) (Scalar.ofBits .f32 0x00000000#32) (ix3 u g o)
      = scale (blockSlab x0) (blockProj x1) (blockBias x2) g o := by
  unfold k0_pay3
  rw [shapeCast_ab_1ab_apply]
  show Ideal.sqrt (max (k0_pay11 (F := Ideal) x0 x1 x2 (ix2 g o)) zeroWord) = _
  rw [pay11_apply]
  rfl

end Cert.KernelIdeal.Block

end
-- ==== Proof.KernelArrays.lean ====
/-
  The idealized kernel's three result arrays after its run, as whole-array functions of the arguments.

  The region runs the body once per slab: grid point `t` stages slab `t` of the samples, the whole transposed
  projection and the bias row, and writes back row `t` of the weights and block `t` of the locations and of the
  scales.  Each written block is the body's payload of the staged blocks (Proof/KernelBlock.lean reads it at an index);
  the staged blocks are the argument arrays read through the windows; the 32 blocks tile each result array; and the
  one operation after the region reshapes the weights rows [32, 1, 32] to [32, 32].  Hence the three results are
  `Moments.weightsArr`, `scalesArr` and `locsArr` of the launched arguments.
-/
import proofs.«158666_j24472723652814_1_alg».proof.Proof.Gen.KernelIdeal.Frame
import proofs.«158666_j24472723652814_1_alg».proof.Proof.KernelBlock
import proofs.«158666_j24472723652814_1_alg».proof.Proof.Moments
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.Moments Idealize.ShloMosaic.StableHlo
open Idealize.ShloMosaic.Pipeline (Dat)

variable (m : (ℓ : Loc nD τ sig) → Buf (Elt Ideal) ℓ) (ρ : Dev nD → PrngReg)

/-- The three argument arrays as launched: the samples, the projection weights and the bias. -/
abbrev A0 (c : Dev nD) : S32x1024x512.Idx → EReal := m ((c : Thread nD τ).loc main_arg0)
abbrev A1 (c : Dev nD) : S32x512.Idx → EReal := m ((c : Thread nD τ).loc main_arg1)
abbrev A2 (c : Dev nD) : S32.Idx → EReal := m ((c : Thread nD τ).loc main_arg2)

/-- The region finds the projection transposed: feature by component. -/
theorem V_v0 (c : Dev nD) : (V m c main_v0 : S512x32.Idx → EReal) = transpose S512x32 [1, 0] (A1 m c) transposes_S32x512_S512x32_1_0 := by
  show StableHlo.after hostOps0 (fun b => m (c, b)) (Proc.devRef .tc main_v0) = _
  after_results

/-- The region finds the bias as one row of 32. -/
theorem V_v1 (c : Dev nD) : (V m c main_v1 : S1x32.Idx → EReal) = shapeCast S1x32 (A2 m c) shapeCasts_S32_S1x32 := by
  show StableHlo.after hostOps0 (fun b => m (c, b)) (Proc.devRef .tc main_v1) = _
  after_results
  rfl

/-- The index maps, decided over the 32 grid points: point `t` takes slab `t` of the samples and writes row `t` of each
    result; the projection and the bias are the same whole block at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- A grid point is a slab index. -/
def pt (t : Fin cfg0.N) : Fin 32 := Fin.cast N_0 t

/-- The three input blocks at point `t`, at their literal shapes. -/
abbrev xblk (c : Dev nD) (t : Fin cfg0.N) : Vec Ideal S1x1024x512 .f32 := iblk m c 0 t
abbrev wblk (c : Dev nD) (t : Fin cfg0.N) : Vec Ideal S512x32 .f32 := iblk m c 1 t
abbrev bblk (c : Dev nD) (t : Fin cfg0.N) : Vec Ideal S1x32 .f32 := iblk m c 2 t

/-- The sample block at point `t`, without its unit axis, is slab `t` of the sample array. -/
theorem slab_blk (c : Dev nD) (t : Fin cfg0.N) : blockSlab (xblk m c t) = slab (A0 m c) (pt t) := by
  funext n d
  show V m c main_arg0 (((cfg0.win 0).blk t).view.emb (ix3 (0 : Fin 1) n d)) = A0 m c (ix3 (pt t) n d)
  rw [V_main_arg0]
  obtain ⟨e0, e1, e2, -⟩ := idx_facts t
  refine congrArg (A0 m c) (funext fun a => Fin.ext ?_)
  match a with
  | ⟨0, _⟩ => show win0_0.index t (0 : Fin 3) * 1 + 1 * (0 : Nat) = t.val; omega
  | ⟨1, _⟩ => show win0_0.index t (1 : Fin 3) * 1024 + 1 * n.val = n.val; omega
  | ⟨2, _⟩ => show win0_0.index t (2 : Fin 3) * 512 + 1 * d.val = d.val; omega

/-- The projection block is the projection weights transposed, at every point. -/
theorem proj_blk (c : Dev nD) (t : Fin cfg0.N) : blockProj (wblk m c t) = proj (A1 m c) := by
  funext d g
  show V m c main_v0 (((cfg0.win 1).blk t).view.emb (ix2 d g)) = A1 m c (ix2 g d)
  obtain ⟨-, -, -, e0, e1, -⟩ := idx_facts t
  have he : ((cfg0.win 1).blk t).view.emb (ix2 d g) = ix2 d g := by
    funext a; apply Fin.ext
    match a with
    | ⟨0, _⟩ => show win0_1.index t (0 : Fin 2) * 512 + 1 * d.val = d.val; omega
    | ⟨1, _⟩ => show win0_1.index t (1 : Fin 2) * 32 + 1 * g.val = g.val; omega
  rw [he, V_v0]
  exact transpose_ix2_apply _ _ d g

/-- The bias block's one row is the bias, at every point. -/
theorem bias_blk (c : Dev nD) (t : Fin cfg0.N) : blockBias (bblk m c t) = bias (A2 m c) := by
  funext g
  show V m c main_v1 (((cfg0.win 2).blk t).view.emb (ix2 (0 : Fin 1) g)) = A2 m c (ix1 g)
  obtain ⟨-, -, -, -, -, e0, e1, -⟩ := idx_facts t
  have he : ((cfg0.win 2).blk t).view.emb (ix2 (0 : Fin 1) g) = ix2 (0 : Fin 1) g := by
    funext a; apply Fin.ext
    match a with
    | ⟨0, _⟩ => show win0_2.index t (0 : Fin 2) * 1 + 1 * (0 : Nat) = 0; omega
    | ⟨1, _⟩ => show win0_2.index t (1 : Fin 2) * 32 + 1 * g.val = g.val; omega
  rw [he, V_v1]
  exact shapeCast_a_1a_apply _ _ (0 : Fin 1) g

/-- Zero offsets, as a function. -/
theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back to the locations array: the body's one store over the whole block, that is, its payload
    of the three input blocks. -/
theorem flushed4 (c : Dev nD) (t : Fin cfg0.N) :
    (dats m 0 c).flushed 4 t = k0_pay2 (F := Ideal) (k0_pay10 (xblk m c t) (wblk m c t) (bblk m c t)) := by
  show (cfg0.win 4).cut (grid0.coords t) ((dats m 0 c).after 4 t) = _
  rw [after0_4]
  unfold out0_4
  rw [View.canon_unit_zero hz3]
  simp only [View.ld_unit_zero (S := S1x1024x512) hz3, View.ld_unit_zero (S := S512x32) hz2, View.ld_unit_zero (S := S1x32) hz2]
  rfl

/-- …which is block `t` of the array of locations: entry `(0, g, o)` of the block sits at `(t, g, o)` of the array, and
    there both are the location of component `g` at feature `o` for slab `t`. -/
theorem flushed4_eq (c : Dev nD) (t : Fin cfg0.N) :
    (dats m 0 c).flushed 4 t = ((cfg0.win 4).blk t).view.read (Elt Ideal) (locsArr (A0 m c) (A1 m c) (A2 m c)) := by
  rw [flushed4]
  funext y
  obtain ⟨u, g, o, rfl⟩ : ∃ (u : Fin 1) (g : Fin 32) (o : Fin 256), y = ix3 u g o := ⟨y 0, y 1, y 2, eq_ix3 y⟩
  show k0_pay2 (F := Ideal) (k0_pay10 (xblk m c t) (wblk m c t) (bblk m c t)) (ix3 u g o)
    = locsArr (A0 m c) (A1 m c) (A2 m c) (((cfg0.win 4).blk t).view.emb (ix3 u g o))
  obtain ⟨-, -, -, -, -, -, -, -, -, -, e0, e1, e2, -⟩ := idx_facts t
  have he : ((cfg0.win 4).blk t).view.emb (ix3 u g o) = ix3 (pt t) g o := by
    funext a; apply Fin.ext
    have h0 : u.val < 1 := u.isLt
    match a with
    | ⟨0, _⟩ => show win0_4.index t (0 : Fin 3) * 1 + 1 * u.val = t.val; omega
    | ⟨1, _⟩ => show win0_4.index t (1 : Fin 3) * 32 + 1 * g.val = g.val; omega
    | ⟨2, _⟩ => show win0_4.index t (2 : Fin 3) * 256 + 1 * o.val = o.val; omega
  rw [he, Block.locs_apply]
  show _ = loc (slab (A0 m c) (pt t)) (proj (A1 m c)) (bias (A2 m c)) g o
  rw [slab_blk, proj_blk, bias_blk]

/-- An index of the array lies in point `t`'s block iff each coordinate is in the block's range on its axis. -/
theorem mem_blk4 (t : Fin cfg0.N) (i : S32x32x256.Idx) :
    i ∈ ((cfg0.win 4).blk t).view.set ↔ ∀ a : Fin 3, win0_4.index t a * S1x32x256.size a ≤ (i a).val ∧ (i a).val < win0_4.index t a * S1x32x256.size a + S1x32x256.size a := by
  show i ∈ ((View.whole main_v2_1).slice (win0_4.rect t)).set ↔ _
  rw [View.set_slice_whole, Rect.mem_set_unit]
  exact Iff.rfl

/-- Every index `(b, g, o)` of the array lies in the block of point `b`. -/
theorem cover4 (i : S32x32x256.Idx) : ∃ t : Fin cfg0.N, (cfg0.win 4).flush t = true ∧ i ∈ ((cfg0.win 4).blk t).view.set := by
  refine ⟨Fin.cast N_0.symm (i 0), flush0_4 _, ?_⟩
  rw [mem_blk4]
  obtain ⟨-, -, -, -, -, -, -, -, -, -, e0, e1, e2, -⟩ := idx_facts (Fin.cast N_0.symm (i 0))
  have hv : (Fin.cast N_0.symm (i 0)).val = (i 0).val := rfl
  have h1 : (i 1).val < 32 := (i 1).isLt
  have h2 : (i 2).val < 256 := (i 2).isLt
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 32 ≤ (i 1).val ∧ (i 1).val < win0_4.index _ (1 : Fin 3) * 32 + 32; omega
  | ⟨2, _⟩ => show win0_4.index _ (2 : Fin 3) * 256 ≤ (i 2).val ∧ (i 2).val < win0_4.index _ (2 : Fin 3) * 256 + 256; omega

/-- After the run the array holds the locations of every slab. -/
theorem final4 (c : Dev nD) : (dats m 0 c).arrAt 4 cfg0.N = locsArr (A0 m c) (A1 m c) (A2 m c) :=
  (dats m 0 c).arrAt_eq_of_cover 4 _ (fun t _ => flushed4_eq m c t) cover4

/-- What point `t` writes back to the scales array: the payload of its one covering store. -/
theorem flushed5 (c : Dev nD) (t : Fin cfg0.N) :
    (dats m 0 c).flushed 5 t
      = k0_pay3 (F := Ideal) (k0_pay11 (xblk m c t) (wblk m c t) (bblk m c t)) (Scalar.ofBits .f32 0x00000000#32) := by
  show (cfg0.win 5).cut (grid0.coords t) ((dats m 0 c).after 5 t) = _
  rw [after0_5]
  unfold out0_5
  rw [View.canon_unit_zero hz3]
  simp only [View.ld_unit_zero (S := S1x1024x512) hz3, View.ld_unit_zero (S := S512x32) hz2, View.ld_unit_zero (S := S1x32) hz2]
  rfl

/-- …which is block `t` of the array of scales. -/
theorem flushed5_eq (c : Dev nD) (t : Fin cfg0.N) :
    (dats m 0 c).flushed 5 t = ((cfg0.win 5).blk t).view.read (Elt Ideal) (scalesArr (A0 m c) (A1 m c) (A2 m c)) := by
  rw [flushed5]
  funext y
  obtain ⟨u, g, o, rfl⟩ : ∃ (u : Fin 1) (g : Fin 32) (o : Fin 256), y = ix3 u g o := ⟨y 0, y 1, y 2, eq_ix3 y⟩
  show k0_pay3 (F := Ideal) (k0_pay11 (xblk m c t) (wblk m c t) (bblk m c t)) (Scalar.ofBits .f32 0x00000000#32) (ix3 u g o)
    = scalesArr (A0 m c) (A1 m c) (A2 m c) (((cfg0.win 5).blk t).view.emb (ix3 u g o))
  obtain ⟨-, -, -, -, -, -, -, -, -, -, -, -, -, e0, e1, e2⟩ := idx_facts t
  have he : ((cfg0.win 5).blk t).view.emb (ix3 u g o) = ix3 (pt t) g o := by
    funext a; apply Fin.ext
    have h0 : u.val < 1 := u.isLt
    match a with
    | ⟨0, _⟩ => show win0_5.index t (0 : Fin 3) * 1 + 1 * u.val = t.val; omega
    | ⟨1, _⟩ => show win0_5.index t (1 : Fin 3) * 32 + 1 * g.val = g.val; omega
    | ⟨2, _⟩ => show win0_5.index t (2 : Fin 3) * 256 + 1 * o.val = o.val; omega
  rw [he, Block.scales_apply]
  show _ = scale (slab (A0 m c) (pt t)) (proj (A1 m c)) (bias (A2 m c)) g o
  rw [slab_blk, proj_blk, bias_blk]

/-- Membership in point `t`'s block of the scales array, coordinate by coordinate. -/
theorem mem_blk5 (t : Fin cfg0.N) (i : S32x32x256.Idx) :
    i ∈ ((cfg0.win 5).blk t).view.set ↔ ∀ a : Fin 3, win0_5.index t a * S1x32x256.size a ≤ (i a).val ∧ (i a).val < win0_5.index t a * S1x32x256.size a + S1x32x256.size a := by
  show i ∈ ((View.whole main_v2_2).slice (win0_5.rect t)).set ↔ _
  rw [View.set_slice_whole, Rect.mem_set_unit]
  exact Iff.rfl

/-- Every index `(b, g, o)` lies in the block of point `b`. -/
theorem cover5 (i : S32x32x256.Idx) : ∃ t : Fin cfg0.N, (cfg0.win 5).flush t = true ∧ i ∈ ((cfg0.win 5).blk t).view.set := by
  refine ⟨Fin.cast N_0.symm (i 0), flush0_5 _, ?_⟩
  rw [mem_blk5]
  obtain ⟨-, -, -, -, -, -, -, -, -, -, -, -, -, e0, e1, e2⟩ := idx_facts (Fin.cast N_0.symm (i 0))
  have hv : (Fin.cast N_0.symm (i 0)).val = (i 0).val := rfl
  have h1 : (i 1).val < 32 := (i 1).isLt
  have h2 : (i 2).val < 256 := (i 2).isLt
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 32 ≤ (i 1).val ∧ (i 1).val < win0_5.index _ (1 : Fin 3) * 32 + 32; omega
  | ⟨2, _⟩ => show win0_5.index _ (2 : Fin 3) * 256 ≤ (i 2).val ∧ (i 2).val < win0_5.index _ (2 : Fin 3) * 256 + 256; omega

/-- After the run the array holds the scales of every slab. -/
theorem final5 (c : Dev nD) : (dats m 0 c).arrAt 5 cfg0.N = scalesArr (A0 m c) (A1 m c) (A2 m c) :=
  (dats m 0 c).arrAt_eq_of_cover 5 _ (fun t _ => flushed5_eq m c t) cover5

/-- The weights as the region writes them: one row of 32 per slab, with a unit axis between. -/
def weightsRows (B0 : S32x1024x512.Idx → EReal) (B1 : S32x512.Idx → EReal) (B2 : S32.Idx → EReal) : S32x1x32.Idx → EReal :=
  fun i => weight (slab B0 (i 0)) (proj B1) (bias B2) (i 2)

/-- What point `t` writes back to the weights rows: the payload of its one covering store. -/
theorem flushed3 (c : Dev nD) (t : Fin cfg0.N) :
    (dats m 0 c).flushed 3 t = k0_pay1 (F := Ideal) (k0_pay7 (xblk m c t) (wblk m c t) (bblk m c t)) := by
  show (cfg0.win 3).cut (grid0.coords t) ((dats m 0 c).after 3 t) = _
  rw [after0_3]
  unfold out0_3
  rw [View.canon_unit_zero hz3]
  simp only [View.ld_unit_zero (S := S1x1024x512) hz3, View.ld_unit_zero (S := S512x32) hz2, View.ld_unit_zero (S := S1x32) hz2]
  rfl

/-- …which is row `t` of the weights rows: entry `(0, 0, g)` of the block sits at `(t, 0, g)`. -/
theorem flushed3_eq (c : Dev nD) (t : Fin cfg0.N) :
    (dats m 0 c).flushed 3 t = ((cfg0.win 3).blk t).view.read (Elt Ideal) (weightsRows (A0 m c) (A1 m c) (A2 m c)) := by
  rw [flushed3]
  funext y
  obtain ⟨u, v, g, rfl⟩ : ∃ (u : Fin 1) (v : Fin 1) (g : Fin 32), y = ix3 u v g := ⟨y 0, y 1, y 2, eq_ix3 y⟩
  show k0_pay1 (F := Ideal) (k0_pay7 (xblk m c t) (wblk m c t) (bblk m c t)) (ix3 u v g)
    = weightsRows (A0 m c) (A1 m c) (A2 m c) (((cfg0.win 3).blk t).view.emb (ix3 u v g))
  obtain ⟨-, -, -, -, -, -, -, e0, e1, e2, -⟩ := idx_facts t
  have he : ((cfg0.win 3).blk t).view.emb (ix3 u v g) = ix3 (pt t) v g := by
    funext a; apply Fin.ext
    have h0 : u.val < 1 := u.isLt
    match a with
    | ⟨0, _⟩ => show win0_3.index t (0 : Fin 3) * 1 + 1 * u.val = t.val; omega
    | ⟨1, _⟩ => show win0_3.index t (1 : Fin 3) * 1 + 1 * v.val = v.val; omega
    | ⟨2, _⟩ => show win0_3.index t (2 : Fin 3) * 32 + 1 * g.val = g.val; omega
  rw [he, Block.weights_apply]
  show _ = weight (slab (A0 m c) (pt t)) (proj (A1 m c)) (bias (A2 m c)) g
  rw [slab_blk, proj_blk, bias_blk]

/-- Membership in point `t`'s block of the weights rows, coordinate by coordinate. -/
theorem mem_blk3 (t : Fin cfg0.N) (i : S32x1x32.Idx) :
    i ∈ ((cfg0.win 3).blk t).view.set ↔ ∀ a : Fin 3, win0_3.index t a * S1x1x32.size a ≤ (i a).val ∧ (i a).val < win0_3.index t a * S1x1x32.size a + S1x1x32.size a := by
  show i ∈ ((View.whole main_v2_0).slice (win0_3.rect t)).set ↔ _
  rw [View.set_slice_whole, Rect.mem_set_unit]
  exact Iff.rfl

/-- Every index `(b, 0, g)` lies in the block of point `b`. -/
theorem cover3 (i : S32x1x32.Idx) : ∃ t : Fin cfg0.N, (cfg0.win 3).flush t = true ∧ i ∈ ((cfg0.win 3).blk t).view.set := by
  refine ⟨Fin.cast N_0.symm (i 0), flush0_3 _, ?_⟩
  rw [mem_blk3]
  obtain ⟨-, -, -, -, -, -, -, e0, e1, e2, -⟩ := idx_facts (Fin.cast N_0.symm (i 0))
  have hv : (Fin.cast N_0.symm (i 0)).val = (i 0).val := rfl
  have h1 : (i 1).val < 1 := (i 1).isLt
  have h2 : (i 2).val < 32 := (i 2).isLt
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 32 ≤ (i 2).val ∧ (i 2).val < win0_3.index _ (2 : Fin 3) * 32 + 32; omega

/-- After the run the weights rows hold the mixture weights of every slab. -/
theorem final3 (c : Dev nD) : (dats m 0 c).arrAt 3 cfg0.N = weightsRows (A0 m c) (A1 m c) (A2 m c) :=
  (dats m 0 c).arrAt_eq_of_cover 3 _ (fun t _ => flushed3_eq m c t) cover3

/-- The reshape after the region drops the unit axis: `(b, g)` of the result is `(b, 0, g)` of the weights rows (same
    row-major position), the mixture weight of component `g` for slab `b`. -/
theorem tail_v3 (c : Dev nD) :
    Pipeline.afterTail₀ cfgs (dats m) 0 (V0 m) [hostOps1] c main_v3 = weightsArr (A0 m c) (A1 m c) (A2 m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2_0)
      = weightsRows (A0 m c) (A1 m c) (A2 m c) :=
    (Pipeline.withArrays_arr spec0 launch0.win.arr_inj c _ _ 3).trans (final3 m c)
  show shapeCast S32x32 (Pipeline.withArrays (cfgs 0).spec c (V0 m c) (fun w => (dats m 0 c).arrAt w (cfgs 0).N) (Proc.devRef .tc main_v2_0))
      shapeCasts_S32x1x32_S32x32 = _
  rw [hw]
  funext i
  obtain ⟨b, g, rfl⟩ : ∃ (b : Fin 32) (g : Fin 32), i = ix2 b g := ⟨i 0, i 1, eq_ix2 i⟩
  refine (shapeCast_apply _ _ (ix2 b g) (ix3 b (0 : Fin 1) g) (by
    rw [Shape.rowMajor_val_three, Shape.rowMajor_val_two]
    show (b.val * 1 + 0) * 32 + g.val = b.val * 32 + g.val
    omega)).trans ?_
  rfl

/-- The run of the idealized kernel, read: every weakly fair execution terminates with the three results at the mixture
    weights, the scales and the locations of the launched arguments, the arguments unchanged. -/
theorem run : θ_run defs (onTc (τ := τ) (main (F := Ideal))) ⟨m, fun _ => 0, ρ⟩ fun r => ∀ c : Dev nD,
      r.2.mem ((c.tc : Thread nD τ).loc main_v3) = weightsArr (A0 m c) (A1 m c) (A2 m c)
      ∧ r.2.mem ((c.tc : Thread nD τ).loc main_v2_2) = scalesArr (A0 m c) (A1 m c) (A2 m c)
      ∧ r.2.mem ((c.tc : Thread nD τ).loc main_v2_1) = locsArr (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v3 (Pipeline.mem_restRefs_of main_v3 (by decide) (by decide))).trans (tail_v3 m c),
      ((h c).1 5).trans (final5 m c),
      ((h c).1 4).trans (final4 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arrays

end
-- ==== Proof.ReferenceRead.lean ====
/-
  The reference's three results, each as one whole-array function of its arguments: the mixture weights, the scales
  and the locations of every slab (Proof/Moments.lean), read off the reference's operations one at a time.
-/
import proofs.«158666_j24472723652814_1_alg».proof.Proof.Gen.ReferenceIdeal.Read
import proofs.«158666_j24472723652814_1_alg».proof.Proof.Moments
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.AtIndex

open Cert.ReferenceIdeal Cert.ReferenceIdeal.Gen Cert.ReferenceIdeal.Read Idealize.ShloMosaic Idealize.ShloMosaic.ValueIdx Cert.Moments

section Stages

variable (x0 : (⟨S32x1024x512, .f32⟩ : BufTy).Contents (Elt Ideal)) (x1 : (⟨S32x512, .f32⟩ : BufTy).Contents (Elt Ideal))
  (x2 : (⟨S32, .f32⟩ : BufTy).Contents (Elt Ideal))

/-! ## The index maps of the operations, at coordinates -/

/-- The first product's left operand is read at (b, n, d). -/
theorem lidx_v0 (b : Fin 32) (n : Fin 1024) (g : Fin 32) (k : Fin 512) : lidx_main_v0 (ix3 b n g) k = ix3 b n k := by
  funext a; match a with | ⟨0, _⟩ => rfl | ⟨1, _⟩ => rfl | ⟨2, _⟩ => rfl
/-- The first product's right operand is read at (g, d). -/
theorem ridx_v0 (b : Fin 32) (n : Fin 1024) (g : Fin 32) (k : Fin 512) : ridx_main_v0 (ix3 b n g) k = ix2 g k := by
  funext a; match a with | ⟨0, _⟩ => rfl | ⟨1, _⟩ => rfl
/-- The bias broadcast over (b, n, g) reads the bias at g. -/
theorem idx_v1v2 (b : Fin 32) (n : Fin 1024) (g : Fin 32) : idx_main_v1 (idx_main_v2 (ix3 b n g)) = ix1 g := by
  funext a; match a with | ⟨0, _⟩ => rfl
/-- A row quantity broadcast over (b, n, g) is read at (b, n): the maximum. -/
theorem idx_v7v8 (b : Fin 32) (n : Fin 1024) (g : Fin 32) : idx_main_v7 (idx_main_v8 (ix3 b n g)) = ix2 b n := by
  funext a; match a with | ⟨0, _⟩ => rfl | ⟨1, _⟩ => rfl
/-- A row quantity broadcast over (b, n, g) is read at (b, n): the normaliser. -/
theorem idx_v12v13 (b : Fin 32) (n : Fin 1024) (g : Fin 32) : idx_main_v12 (idx_main_v13 (ix3 b n g)) = ix2 b n := by
  funext a; match a with | ⟨0, _⟩ => rfl | ⟨1, _⟩ => rfl
/-- The row sum at (b, n) runs over (b, n, g). -/
theorem idx_v11 (b : Fin 32) (n : Fin 1024) (g : Fin 32) : idx_main_v11 (ix2 b n) g = ix3 b n g := by
  funext a; match a with | ⟨0, _⟩ => rfl | ⟨1, _⟩ => rfl | ⟨2, _⟩ => rfl

/-! ## The stages, one value at a time -/

/-- The logits: the product of slab and projection plus the bias. -/
theorem logit_apply (b : Fin 32) (n : Fin 1024) (g : Fin 32) :
    val_main_v3 (F := Ideal) x0 x1 x2 (ix3 b n g) = logit (slab x0 b) (proj x1) (bias x2) n g := by
  rw [val_main_v3_apply, val_main_v0_apply, val_main_v2_apply, val_main_v1_apply, idx_v1v2, Ideal.addf_def]
  unfold logit slab proj bias
  refine congrArg (· + _) (Finset.sum_congr rfl fun k _ => ?_)
  rw [lidx_v0, ridx_v0]

/-- The maximum over the components, from -∞, of the logits of one row. -/
theorem fold_apply (b : Fin 32) (n : Fin 1024) :
    val_main_v4 (F := Ideal) x0 x1 x2 (ix2 b n)
      = (Finset.univ : Finset (Fin 32)).fold max negInf (fun g => logit (slab x0 b) (proj x1) (bias x2) n g) := by
  unfold val_main_v4
  rw [Host.reduce_eq_fold_single (FloatOps.maximumf (F := Ideal) (φ := .f32)) _ _ reducesTo_S32x1024x32_S32x1024_d2 (by decide) h_S_]
  show (Finset.univ : Finset (Fin 32)).fold max negInf _ = _
  refine congrArg (fun f => (Finset.univ : Finset (Fin 32)).fold max negInf f) (funext fun (g : Fin 32) => ?_)
  refine Eq.trans ?_ (logit_apply x0 x1 x2 b n g)
  exact congrArg (val_main_v3 (F := Ideal) x0 x1 x2)
    (funext fun a => Fin.ext (by match a with | ⟨0, _⟩ => rfl | ⟨1, _⟩ => rfl | ⟨2, _⟩ => rfl))

/-- The row maximum, taken once more against -∞. -/
theorem rowMax_apply (b : Fin 32) (n : Fin 1024) :
    val_main_v6 (F := Ideal) x0 x1 x2 (ix2 b n) = rowMax (slab x0 b) (proj x1) (bias x2) n := by
  rw [val_main_v6_apply, val_main_v5_apply, val_main_cst_0_apply, fold_apply, Ideal.maximumf_def]
  rfl

/-- The exponential of the logit shifted by its row maximum. -/
theorem expo_apply (b : Fin 32) (n : Fin 1024) (g : Fin 32) :
    val_main_v10 (F := Ideal) x0 x1 x2 (ix3 b n g) = expo (slab x0 b) (proj x1) (bias x2) n g := by
  rw [val_main_v10_apply, val_main_v9_apply, val_main_v8_apply, val_main_v7_apply, idx_v7v8, logit_apply, rowMax_apply,
    Ideal.subf_def, Ideal.hostUnary_exp_def]
  rfl

/-- The row's normaliser: the sum of the exponentials over the components. -/
theorem rowSum_apply (b : Fin 32) (n : Fin 1024) :
    val_main_v11 (F := Ideal) x0 x1 x2 (ix2 b n) = rowSum (slab x0 b) (proj x1) (bias x2) n := by
  rw [val_main_v11_apply, val_main_cst_1_apply, Ideal.ofBits_def, Ideal.ofBits_zero_f32, zero_add]
  unfold rowSum
  refine Finset.sum_congr rfl fun g _ => ?_
  rw [idx_v11, expo_apply]

/-- The responsibilities: the exponential over the row's normaliser. -/
theorem prob_apply (b : Fin 32) (n : Fin 1024) (g : Fin 32) :
    val_main_v14 (F := Ideal) x0 x1 x2 (ix3 b n g) = prob (slab x0 b) (proj x1) (bias x2) n g := by
  rw [val_main_v14_apply, val_main_v13_apply, val_main_v12_apply, idx_v12v13, expo_apply, rowSum_apply, Ideal.hostDivf_def]
  rfl

end Stages

section FromTheMass

variable (x0 : (⟨S32x1024x512, .f32⟩ : BufTy).Contents (Elt Ideal)) (x1 : (⟨S32x512, .f32⟩ : BufTy).Contents (Elt Ideal))
  (x2 : (⟨S32, .f32⟩ : BufTy).Contents (Elt Ideal))

/-- The first feature half at (b, n, o) is the slab's column o. -/
theorem idx_v15 (b : Fin 32) (n : Fin 1024) (o : Fin 256) : idx_main_v15 (ix3 b n o) = ix3 b n (lo o) := by
  funext a; match a with | ⟨0, _⟩ => rfl | ⟨1, _⟩ => rfl | ⟨2, _⟩ => rfl
/-- The second feature half at (b, n, o) is the slab's column 256 + o. -/
theorem idx_v16 (b : Fin 32) (n : Fin 1024) (o : Fin 256) : idx_main_v16 (ix3 b n o) = ix3 b n (hi o) := by
  funext a; match a with | ⟨0, _⟩ => rfl | ⟨1, _⟩ => rfl | ⟨2, _⟩ => rfl
/-- The sum over the samples at (b, g) runs over (b, n, g): the weights' mass. -/
theorem idx_v17 (b : Fin 32) (g : Fin 32) (n : Fin 1024) : idx_main_v17 (ix2 b g) n = ix3 b n g := by
  funext a; match a with | ⟨0, _⟩ => rfl | ⟨1, _⟩ => rfl | ⟨2, _⟩ => rfl
/-- The sum over the samples at (b, g) runs over (b, n, g): the moments' mass. -/
theorem idx_v20 (b : Fin 32) (g : Fin 32) (n : Fin 1024) : idx_main_v20 (ix2 b g) n = ix3 b n g := by
  funext a; match a with | ⟨0, _⟩ => rfl | ⟨1, _⟩ => rfl | ⟨2, _⟩ => rfl
/-- The first moment's left operand is read at (b, n, g). -/
theorem lidx_v21 (b : Fin 32) (g : Fin 32) (o : Fin 256) (n : Fin 1024) : lidx_main_v21 (ix3 b g o) n = ix3 b n g := by
  funext a; match a with | ⟨0, _⟩ => rfl | ⟨1, _⟩ => rfl | ⟨2, _⟩ => rfl
/-- The first moment's right operand is read at (b, n, o). -/
theorem ridx_v21 (b : Fin 32) (g : Fin 32) (o : Fin 256) (n : Fin 1024) : ridx_main_v21 (ix3 b g o) n = ix3 b n o := by
  funext a; match a with | ⟨0, _⟩ => rfl | ⟨1, _⟩ => rfl | ⟨2, _⟩ => rfl
/-- The second moment's left operand is read at (b, n, g). -/
theorem lidx_v28 (b : Fin 32) (g : Fin 32) (o : Fin 256) (n : Fin 1024) : lidx_main_v28 (ix3 b g o) n = ix3 b n g := by
  funext a; match a with | ⟨0, _⟩ => rfl | ⟨1, _⟩ => rfl | ⟨2, _⟩ => rfl
/-- The second moment's right operand is read at (b, n, o). -/
theorem ridx_v28 (b : Fin 32) (g : Fin 32) (o : Fin 256) (n : Fin 1024) : ridx_main_v28 (ix3 b g o) n = ix3 b n o := by
  funext a; match a with | ⟨0, _⟩ => rfl | ⟨1, _⟩ => rfl | ⟨2, _⟩ => rfl
/-- The mass broadcast over (b, g, o) is read at (b, g): the first moment's divisor. -/
theorem idx_v22v23 (b : Fin 32) (g : Fin 32) (o : Fin 256) : idx_main_v22 (idx_main_v23 (ix3 b g o)) = ix2 b g := by
  funext a; match a with | ⟨0, _⟩ => rfl | ⟨1, _⟩ => rfl
/-- The mass broadcast over (b, g, o) is read at (b, g): the second moment's divisor. -/
theorem idx_v29v30 (b : Fin 32) (g : Fin 32) (o : Fin 256) : idx_main_v29 (idx_main_v30 (ix3 b g o)) = ix2 b g := by
  funext a; match a with | ⟨0, _⟩ => rfl | ⟨1, _⟩ => rfl

/-- The mass of a component: its responsibilities summed over the samples (the copy the weights use). -/
theorem mass_apply (b : Fin 32) (g : Fin 32) :
    val_main_v17 (F := Ideal) x0 x1 x2 (ix2 b g) = mass (slab x0 b) (proj x1) (bias x2) g := by
  rw [val_main_v17_apply, val_main_cst_2_apply, Ideal.ofBits_def, Ideal.ofBits_zero_f32, zero_add]
  unfold mass
  refine Finset.sum_congr rfl fun n _ => ?_
  rw [idx_v17, prob_apply]

/-- The mass of a component (the copy the moments are divided by). -/
theorem mass_apply' (b : Fin 32) (g : Fin 32) :
    val_main_v20 (F := Ideal) x0 x1 x2 (ix2 b g) = mass (slab x0 b) (proj x1) (bias x2) g := by
  rw [val_main_v20_apply, val_main_cst_4_apply, Ideal.ofBits_def, Ideal.ofBits_zero_f32, zero_add]
  unfold mass
  refine Finset.sum_congr rfl fun n _ => ?_
  rw [idx_v20, prob_apply]

/-- The mixture weight: the mass over the sample count, that is, times 2⁻¹⁰. -/
theorem weight_apply (b : Fin 32) (g : Fin 32) :
    val_main_v19 (F := Ideal) x0 x1 x2 (ix2 b g) = weight (slab x0 b) (proj x1) (bias x2) g := by
  rw [val_main_v19_apply, val_main_v18_apply, val_main_cst_3_apply, mass_apply, Ideal.hostDivf_def, Ideal.ofBits_def]
  exact div_count _

/-- The means: the first feature half. -/
theorem mean_apply (b : Fin 32) (n : Fin 1024) (o : Fin 256) :
    val_main_v15 (F := Ideal) x0 (ix3 b n o) = slab x0 b n (lo o) := by
  rw [val_main_v15_apply, idx_v15]
  rfl

/-- The deviations: the second feature half. -/
theorem dev_apply (b : Fin 32) (n : Fin 1024) (o : Fin 256) :
    val_main_v16 (F := Ideal) x0 (ix3 b n o) = slab x0 b n (hi o) := by
  rw [val_main_v16_apply, idx_v16]
  rfl

/-- The second-moment integrand: mean squared plus deviation squared. -/
theorem second_apply (b : Fin 32) (n : Fin 1024) (o : Fin 256) :
    val_main_v27 (F := Ideal) x0 (ix3 b n o) = second (slab x0 b) n o := by
  rw [val_main_v27_apply, val_main_v25_apply, val_main_v26_apply, mean_apply, dev_apply, Ideal.addf_def, Ideal.mulf_def,
    Ideal.mulf_def]
  rfl

/-- The responsibility-weighted first moment of the means. -/
theorem mom1_apply (b : Fin 32) (g : Fin 32) (o : Fin 256) :
    val_main_v21 (F := Ideal) x0 x1 x2 (ix3 b g o) = mom1 (slab x0 b) (proj x1) (bias x2) g o := by
  rw [val_main_v21_apply]
  unfold mom1
  refine Finset.sum_congr rfl fun n _ => ?_
  rw [lidx_v21, ridx_v21, prob_apply, mean_apply]

/-- The responsibility-weighted second moment. -/
theorem mom2_apply (b : Fin 32) (g : Fin 32) (o : Fin 256) :
    val_main_v28 (F := Ideal) x0 x1 x2 (ix3 b g o) = mom2 (slab x0 b) (proj x1) (bias x2) g o := by
  rw [val_main_v28_apply]
  unfold mom2
  refine Finset.sum_congr rfl fun n _ => ?_
  rw [lidx_v28, ridx_v28, prob_apply, second_apply]

/-- The location: the first moment over the mass. -/
theorem loc_apply (b : Fin 32) (g : Fin 32) (o : Fin 256) :
    val_main_v24 (F := Ideal) x0 x1 x2 (ix3 b g o) = loc (slab x0 b) (proj x1) (bias x2) g o := by
  rw [val_main_v24_apply, val_main_v23_apply, val_main_v22_apply, idx_v22v23, mom1_apply, mass_apply', Ideal.hostDivf_def]
  rfl

/-- The variance before clipping: the second moment over the mass, minus the squared location. -/
theorem var_apply (b : Fin 32) (g : Fin 32) (o : Fin 256) :
    val_main_v33 (F := Ideal) x0 x1 x2 (ix3 b g o) = var (slab x0 b) (proj x1) (bias x2) g o := by
  rw [val_main_v33_apply, val_main_v31_apply, val_main_v32_apply, val_main_v30_apply, val_main_v29_apply, idx_v29v30,
    mom2_apply, mass_apply', loc_apply, Ideal.hostDivf_def, Ideal.subf_def, Ideal.mulf_def]
  rfl

/-- The scale: the square root of the variance clipped below at zero. -/
theorem scale_apply (b : Fin 32) (g : Fin 32) (o : Fin 256) :
    val_main_v36 (F := Ideal) x0 x1 x2 (ix3 b g o) = scale (slab x0 b) (proj x1) (bias x2) g o := by
  rw [val_main_v36_apply, val_main_v35_apply, val_main_v34_apply, val_main_cst_5_apply, var_apply, Ideal.maximumf_def,
    Ideal.hostUnary_sqrt_def]
  rfl

end FromTheMass

/-- The reference's first result is the array of mixture weights. -/
theorem weights_eq (x0 : (⟨S32x1024x512, .f32⟩ : BufTy).Contents (Elt Ideal)) (x1 : (⟨S32x512, .f32⟩ : BufTy).Contents (Elt Ideal))
    (x2 : (⟨S32, .f32⟩ : BufTy).Contents (Elt Ideal)) :
    val_main_v19 (F := Ideal) x0 x1 x2 = weightsArr x0 x1 x2 := by
  funext i
  obtain ⟨b, g, rfl⟩ : ∃ b g, i = ix2 b g := ⟨_, _, eq_ix2 i⟩
  exact weight_apply x0 x1 x2 b g

/-- The reference's second result is the array of scales. -/
theorem scales_eq (x0 : (⟨S32x1024x512, .f32⟩ : BufTy).Contents (Elt Ideal)) (x1 : (⟨S32x512, .f32⟩ : BufTy).Contents (Elt Ideal))
    (x2 : (⟨S32, .f32⟩ : BufTy).Contents (Elt Ideal)) :
    val_main_v36 (F := Ideal) x0 x1 x2 = scalesArr x0 x1 x2 := by
  funext i
  obtain ⟨b, g, o, rfl⟩ : ∃ b g o, i = ix3 b g o := ⟨_, _, _, eq_ix3 i⟩
  exact scale_apply x0 x1 x2 b g o

/-- The reference's third result is the array of locations. -/
theorem locs_eq (x0 : (⟨S32x1024x512, .f32⟩ : BufTy).Contents (Elt Ideal)) (x1 : (⟨S32x512, .f32⟩ : BufTy).Contents (Elt Ideal))
    (x2 : (⟨S32, .f32⟩ : BufTy).Contents (Elt Ideal)) :
    val_main_v24 (F := Ideal) x0 x1 x2 = locsArr x0 x1 x2 := by
  funext i
  obtain ⟨b, g, o, rfl⟩ : ∃ b g o, i = ix3 b g o := ⟨_, _, _, eq_ix3 i⟩
  exact loc_apply x0 x1 x2 b g o

end Cert.ReferenceIdeal.AtIndex

end
-- ==== Proof.lean ====
/-
  The certificate's claim: a mixture-density reduction over 32 slabs of 1024 samples by 512 features.

  Both programs compute, per slab, the softmax responsibilities of 32 components from the logits `X · Wᵀ + b`, the mean
  responsibility of each component (the mixture weight), and from the responsibility-weighted first moment of the
  first 256 features and second moment `mean² + deviation²` of the two feature halves, each divided by the component's
  mass, the location and the scale `√max(second − location², 0)` (Proof/Moments.lean states these once).  The kernel runs
  one grid point per slab, takes both moments in one product against the two halves laid side by side, and multiplies
  the mass by 2⁻¹⁰ where the reference divides by 1024: over the extended reals these are the same numbers, the last
  because dividing by a nonzero real is multiplying by its reciprocal at the infinities too.  So the two runs end with
  equal results whatever the inputs; the precondition is not used.

  The frames: the two kernel programs' are their frame runs; the reference's is its run with the results dropped.
  The kernel's idealization rewrote nothing, so there is nothing to preserve.
-/
import proofs.«158666_j24472723652814_1_alg».proof.Defs
import proofs.«158666_j24472723652814_1_alg».proof.Proof.Gen.Kernel
import proofs.«158666_j24472723652814_1_alg».proof.Proof.Gen.Kernel.Skeleton
import proofs.«158666_j24472723652814_1_alg».proof.Proof.Gen.Kernel.Launch
import proofs.«158666_j24472723652814_1_alg».proof.Proof.Gen.Kernel.Points
import proofs.«158666_j24472723652814_1_alg».proof.Proof.Gen.Kernel.Frame
import proofs.«158666_j24472723652814_1_alg».proof.Proof.Gen.KernelIdeal
import proofs.«158666_j24472723652814_1_alg».proof.Proof.Gen.KernelIdeal.Skeleton
import proofs.«158666_j24472723652814_1_alg».proof.Proof.Gen.KernelIdeal.Launch
import proofs.«158666_j24472723652814_1_alg».proof.Proof.Gen.KernelIdeal.Points
import proofs.«158666_j24472723652814_1_alg».proof.Proof.Gen.KernelIdeal.Frame
import proofs.«158666_j24472723652814_1_alg».proof.Proof.Gen.ReferenceIdeal
import proofs.«158666_j24472723652814_1_alg».proof.Proof.Gen.Pre_finite_inputs
import proofs.«158666_j24472723652814_1_alg».proof.Proof.Gen.ReferenceIdeal.Run
import proofs.«158666_j24472723652814_1_alg».proof.Proof.Gen.ReferenceIdeal.Read
import proofs.«158666_j24472723652814_1_alg».proof.Proof.Moments
import proofs.«158666_j24472723652814_1_alg».proof.Proof.KernelBlock
import proofs.«158666_j24472723652814_1_alg».proof.Proof.KernelArrays
import proofs.«158666_j24472723652814_1_alg».proof.Proof.ReferenceRead
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the arguments both runs end at the mixture weights, the scales and the locations of
    those arguments. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨h0, h1, h2, k0, k1, k2⟩ := h c
  obtain ⟨a0, a1, a2⟩ := hagree c
  refine ⟨?_, ?_, ?_, k0, k1, k2⟩
  · rw [h0, Cert.ReferenceIdeal.Read.val_main_v19_eq, Cert.ReferenceIdeal.AtIndex.weights_eq, a0, a1, a2]
  · rw [h1, Cert.ReferenceIdeal.Read.val_main_v36_eq, Cert.ReferenceIdeal.AtIndex.scales_eq, a0, a1, a2]
  · rw [h2, Cert.ReferenceIdeal.Read.val_main_v24_eq, Cert.ReferenceIdeal.AtIndex.locs_eq, a0, a1, a2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
